-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x64 : Shape := ⟨2, ![11008, 64]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x64 : S_.BroadcastsInDim S11008x64 (![] : Fin 0 → Fin S11008x64.rank)
  reducesTo_S11008x64_S_d0_1 : S11008x64.ReducesTo [0, 1] S_
  bcast_S_S11008 : S_.BroadcastsInDim S11008 (![] : Fin 0 → Fin S11008.rank)
  reducesTo_S11008_S_d0 : S11008.ReducesTo [0] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg1 : IVec S11008x4096 32) (main_v13 : IVec S_ 1) (main_v15 : IVec S11008x4096 1) (main_c_5 : IVec S_ 32) : IVec S_ 1 :=
  let main_v16 : IVec S11008x4096 32 := broadcastInDim S11008x4096 ![] bcast_S_S11008x4096 main_c_5
  let main_v17 : IVec S11008x4096 1 := cmpi .slt main_arg1 main_v16
  let main_v18 : IVec S11008x4096 1 := andi main_v15 main_v17
  let main_c_6 : IVec S_ 1 := constantI S_ 1 1#1
  let main_v19 : IVec S_ 1 := (fun x v => Host.reduce IntOp.andi x v reducesTo_S11008x4096_S_d0_1 h_S_) main_v18 main_c_6
  let main_v20 : IVec S_ 1 := andi main_v13 main_v19
  main_v20

def fn {F : FTy → Type} [FloatOps F] (main_arg0 : FVec F S4x2048x4096 .f32) (main_arg1 : IVec S11008x4096 32) (main_arg2 : FVec F S11008x64 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x64 .f32 := Host.absf main_arg2
  let main_cst_0 : FVec F S_ .f32 := constant S_ .f32 0x7F800000#32
  let main_v5 : FVec F S11008x64 .f32 := broadcastInDim S11008x64 ![] bcast_S_S11008x64 main_cst_0
  let main_v6 : IVec S11008x64 1 := cmpf .olt main_v4 main_v5
  let main_c_1 : IVec S_ 1 := constantI S_ 1 1#1
  let main_v7 : IVec S_ 1 := (fun x v => Host.reduce IntOp.andi x v reducesTo_S11008x64_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S11008x4096 32 := broadcastInDim S11008x4096 ![] bcast_S_S11008x4096 main_c_4
  let main_v15 : IVec S11008x4096 1 := cmpi .sge main_arg1 main_v14
  let main_c_5 : IVec S_ 32 := constantI S_ 32 16#32
  fn_part1 (F := F) main_arg1 main_v13 main_v15 main_c_5
-- ==== Kernel.lean ====
abbrev S4x2048x4096 : Shape := ⟨3, ![4, 2048, 4096]⟩
abbrev S11008x4096 : Shape := ⟨2, ![11008, 4096]⟩
abbrev S11008x64 : Shape := ⟨2, ![11008, 64]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S256x64 : Shape := ⟨2, ![256, 64]⟩
abbrev S1x256 : Shape := ⟨2, ![1, 256]⟩
abbrev S512x256 : Shape := ⟨2, ![512, 256]⟩
abbrev S256x64x1 : Shape := ⟨3, ![256, 64, 1]⟩
abbrev S256x64x64 : Shape := ⟨3, ![256, 64, 64]⟩
abbrev S4x2048x11008 : Shape := ⟨3, ![4, 2048, 11008]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x64, .f32⟩
  | .hbm, ⟨3, _⟩ => ⟨S11008, .f32⟩
  | .hbm, ⟨4, _⟩ => ⟨S8192x4096, .f32⟩
  | .hbm, ⟨5, _⟩ => ⟨S1x11008, .f32⟩
  | .hbm, ⟨6, _⟩ => ⟨S8192x11008, .f32⟩
  | .hbm, ⟨7, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x64, .f32⟩
  | .local _ .vmem, ⟨5, _⟩ => ⟨S256x64, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S11008x64.size a
  hwx0_2 : ∀ i : grid0.Coords, EltTy.bits .f32 = 32 ∨ (Rect.block (s := S11008x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x11008.size a
  hwx0_4 : ∀ i : grid0.Coords, EltTy.bits .f32 = 32 ∨ (Rect.block (s := S8192x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x64 : Shape := ⟨2, ![11008, 64]⟩
abbrev S11008 : Shape := ⟨1, ![11008]⟩
abbrev S16 : Shape := ⟨1, ![16]⟩
abbrev S_ : Shape := ⟨0, ![]⟩
abbrev S11008x4096x1 : Shape := ⟨3, ![11008, 4096, 1]⟩
abbrev S11008x64x64 : Shape := ⟨3, ![11008, 64, 64]⟩
abbrev S11008x64x1 : Shape := ⟨3, ![11008, 64, 1]⟩
abbrev S4x2048x11008 : Shape := ⟨3, ![4, 2048, 11008]⟩
abbrev S1x1x11008 : Shape := ⟨3, ![1, 1, 11008]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x64, .f32⟩
  | .hbm, ⟨3, _⟩ => ⟨S11008, .f32⟩
  | .hbm, ⟨4, _⟩ => ⟨S16, .f32⟩
  | .hbm, ⟨5, _⟩ => ⟨S_, .i32⟩
  | .hbm, ⟨6, _⟩ => ⟨S11008x4096, .i32⟩
  | .hbm, ⟨7, _⟩ => ⟨S11008x4096, .i1⟩
  | .hbm, ⟨8, _⟩ => ⟨S_, .i32⟩
  | .hbm, ⟨9, _⟩ => ⟨S11008x4096, .i32⟩
  | .hbm, ⟨10, _⟩ => ⟨S11008x4096, .i32⟩
  | .hbm, ⟨11, _⟩ => ⟨S11008x4096, .i32⟩
  | .hbm, ⟨12, _⟩ => ⟨S11008x4096x1, .i32⟩
  | .hbm, ⟨13, _⟩ => ⟨S11008x4096, .f32⟩
  | .hbm, ⟨14, _⟩ => ⟨S11008x64x64, .f32⟩
  | .hbm, ⟨15, _⟩ => ⟨S11008x64x1, .f32⟩
  | .hbm, ⟨16, _⟩ => ⟨S11008x64x64, .f32⟩
  | .hbm, ⟨17, _⟩ => ⟨S11008x64x64, .f32⟩
  | .hbm, ⟨18, _⟩ => ⟨S11008x4096, .f32⟩
  | .hbm, ⟨19, _⟩ => ⟨S4x2048x11008, .f32⟩
  | .hbm, ⟨20, _⟩ => ⟨S1x1x11008, .f32⟩
  | .hbm, ⟨21, _⟩ => ⟨S4x2048x11008, .f32⟩
  | .hbm, ⟨22, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S11008x4096_S11008x64x64 : S11008x4096.ShapeCasts S11008x64x64
  bcast_S11008x64_S11008x64x1_0_1 : S11008x64.BroadcastsInDim S11008x64x1 (![0, 1] : Fin 2 → Fin S11008x64x1.rank)
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S16_S11008x4096x1_S11008x4096_n_0_n_n_0_2_1_wf : GatherDims.WF S16 S11008x4096x1 S11008x4096 [] [0] [] [0] [] 2 ![1]
  dot_S4x2048x4096_S11008x4096_S4x2048x11008_2_1_01_0_n_n_wf : DotDims.WF S4x2048x4096 S11008x4096 S4x2048x11008 [2] [1] [0, 1] [0] [] []

variable [Facts₀]

def gather_S16_S11008x4096x1_S11008x4096_n_0_n_n_0_2_1 : GatherDims S16 S11008x4096x1 S11008x4096 where
  offsetDims := []
  collapsedSliceDims := [0]
  operandBatchingDims := []
  startIndicesBatchingDims := []
  startIndexMap := [0]
  indexVectorDim := 2
  sliceSizes := ![1]
  wf := gather_S16_S11008x4096x1_S11008x4096_n_0_n_n_0_2_1_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The common value of the two programs, as one function of the four argument arrays.

  The layer is a linear map with a 4-bit blockwise-quantized weight: every weight entry is stored as a code in 0..15
  into a fixed table of sixteen numbers, and every run of 64 consecutive entries of a weight row shares one scale.
  With `x` the activations [4, 2048, 4096], `wq` the codes [11008, 4096], `am` the scales [11008, 64] and `b` the
  bias [11008], the result at (p, q, o) is

      (∑ k < 4096, x[p, q, k] · (code(wq[o, k]) · am[o, k / 64])) + b[o]

  on the extended reals. `code` is the table written as the chain of sixteen equality tests, the last test winning:
  a word that is none of 0..15 reads 0.
-/
import Idealize.ShloMosaic.PureOps.Ideal
import Idealize.ShloMosaic.Lib.ValueIdx

noncomputable section

namespace Cert.Nf4

open Idealize.ShloMosaic Idealize.ShloMosaic.ValueIdx

/-- The activations' shape. -/
abbrev SX : Shape := ⟨3, ![4, 2048, 4096]⟩
/-- The codes' shape. -/
abbrev SQ : Shape := ⟨2, ![11008, 4096]⟩
/-- The scales' shape. -/
abbrev SA : Shape := ⟨2, ![11008, 64]⟩
/-- The bias's shape. -/
abbrev SB : Shape := ⟨1, ![11008]⟩
/-- The result's shape. -/
abbrev SO : Shape := ⟨3, ![4, 2048, 11008]⟩

/-- One entry of the table, as an extended real. -/
abbrev lit (w : BitVec 32) : EReal := (FloatOps.ofBits .f32 w : Ideal .f32)

/-- The sixteen-entry table read at a word by sixteen equality tests, each overriding the ones before it; a word outside
    0..15 reads the initial 0. -/
def code (c : BitVec 32) : EReal :=
  Scalar.select (IntOp.cmpi .eq c 15#32) (lit 0x3F800000#32)
  (Scalar.select (IntOp.cmpi .eq c 14#32) (lit 0x3F3913B3#32)
  (Scalar.select (IntOp.cmpi .eq c 13#32) (lit 0x3F1007AB#32)
  (Scalar.select (IntOp.cmpi .eq c 12#32) (lit 0x3EE1A4B8#32)
  (Scalar.select (IntOp.cmpi .eq c 11#32) (lit 0x3EAD033A#32)
  (Scalar.select (IntOp.cmpi .eq c 10#32) (lit 0x3E7C04DD#32)
  (Scalar.select (IntOp.cmpi .eq c 9#32) (lit 0x3E24CAE3#32)
  (Scalar.select (IntOp.cmpi .eq c 8#32) (lit 0x3DA2FAFF#32)
  (Scalar.select (IntOp.cmpi .eq c 7#32) (lit 0x00000000#32)
  (Scalar.select (IntOp.cmpi .eq c 6#32) (lit 0xBDBA7871#32)
  (Scalar.select (IntOp.cmpi .eq c 5#32) (lit 0xBE3D353F#32)
  (Scalar.select (IntOp.cmpi .eq c 4#32) (lit 0xBE91A24D#32)
  (Scalar.select (IntOp.cmpi .eq c 3#32) (lit 0xBECA32A0#32)
  (Scalar.select (IntOp.cmpi .eq c 2#32) (lit 0xBF066B30#32)
  (Scalar.select (IntOp.cmpi .eq c 1#32) (lit 0xBF3239B1#32)
  (Scalar.select (IntOp.cmpi .eq c 0#32) (lit 0xBF800000#32)
  (lit 0x00000000#32))))))))))))))))

/-- The scale block of column `k`: 64 consecutive columns share one scale. -/
def blk (k : Fin 4096) : Fin 64 := ⟨k.val / 64, by have := k.isLt; omega⟩

/-- The dequantized weight at row `o`, column `k`: the table entry of its code times its block's scale. -/
def weight (wq : IVec SQ 32) (am : FVec Ideal SA .f32) (o : Fin 11008) (k : Fin 4096) : EReal :=
  code (wq (ix2 o k)) * am (ix2 o (blk k))

/-- The result at (p, q, o). -/
def entry (x : FVec Ideal SX .f32) (wq : IVec SQ 32) (am : FVec Ideal SA .f32) (b : FVec Ideal SB .f32)
    (p : Fin 4) (q : Fin 2048) (o : Fin 11008) : EReal :=
  (∑ k : Fin 4096, x (ix3 p q k) * weight wq am o k) + b (ix1 o)

/-- THE RESULT ARRAY as one function of the four argument arrays. -/
def G (x : FVec Ideal SX .f32) (wq : IVec SQ 32) (am : FVec Ideal SA .f32) (b : FVec Ideal SB .f32) : FVec Ideal SO .f32 :=
  fun i => entry x wq am b (i 0) (i 1) (i 2)

end Cert.Nf4

end
-- ==== Proof.PreRange.lean ====
/-
  From the printed precondition to the range of the codes.

  The precondition is the conjunction of three finiteness tests of the float arguments and of one test of the
  codes: the conjunction over all (o, k) of  0 ≤ c[o, k]  and  c[o, k] < 16,  both comparisons signed. When the
  whole predicate is 1, its last conjunct is 1; a conjunction over all indices that is 1 is 1 at each index;
  and the two comparison words at an index say exactly 0 ≤ c and c < 16 of the signed reading of the word.
-/
import proofs.«419972_j73040213836141_1_alg».proof.Proof.Gen.Pre_finite_inputs
import proofs.«419972_j73040213836141_1_alg».proof.Proof.Spec
import Idealize.ShloMosaic.Lib.ReduceAll
import Idealize.ShloMosaic.Lib.Affine

namespace Cert.Nf4

open Idealize.ShloMosaic
open Cert.Pre_finite_inputs Cert.Pre_finite_inputs.Gen

/-- A shape of rank 0 has one index. -/
instance subsingleton_scalarIdx : Subsingleton Cert.Pre_finite_inputs.S_.Idx :=
  ⟨fun a b => funext fun d => d.elim0⟩

/-- The two comparison words of one code: both are 1 exactly when the code, read signed, lies in 0..15. -/
theorem range_of_tests (c : BitVec 32)
    (h : IntOp.andi (IntOp.cmpi .sge c 0#32) (IntOp.cmpi .slt c 16#32) = 1#1) :
    0 ≤ c.toInt ∧ c.toInt < 16 := by
  obtain ⟨hge, hlt⟩ := IntOp.andi_eq_one.1 h
  have h0 : (0#32 : BitVec 32).toInt = 0 := by decide
  have h16 : (16#32 : BitVec 32).toInt = 16 := by decide
  have hge' := IntOp.cmpi_sge.1 hge
  have hlt' := IntOp.cmpi_slt.1 hlt
  rw [h0] at hge'
  rw [h16] at hlt'
  exact ⟨hge', hlt'⟩

/-- Under the precondition every code lies in 0..15 (signed). -/
theorem codes_in_range {F : FTy → Type} [FloatOps F] (a0 : FVec F Cert.Pre_finite_inputs.S4x2048x4096 .f32)
    (a1 : IVec Cert.Pre_finite_inputs.S11008x4096 32) (a2 : FVec F Cert.Pre_finite_inputs.S11008x64 .f32)
    (a3 : FVec F Cert.Pre_finite_inputs.S11008 .f32)
    (h : Cert.Pre_finite_inputs.fn (F := F) a0 a1 a2 a3 = fun _ => 1#1) :
    ∀ i : SQ.Idx, 0 ≤ (a1 i).toInt ∧ (a1 i).toInt < 16 := by
  intro i
  have h0 := congrFun h ValueIdx.ix0
  dsimp only [fn, fn_part1] at h0
  -- the last conjunct of the predicate: the conjunction of the range tests over all codes
  have hall := (IntOp.andi_eq_one.1 h0).2
  -- a conjunction over all indices that is 1 is 1 at the index i
  have hi := Host.reduce_andi_all _ _ _ _ _ hall i
  exact range_of_tests (a1 i) hi

end Cert.Nf4
-- ==== Proof.Flat.lean ====
/-
  The same value one reshape away. The kernel works on the activations flattened to [8192, 4096] (row `p · 2048 + q`
  is `x[p, q, ·]`), on the bias as a [1, 11008] row, and writes an [8192, 11008] array that is reshaped back to
  [4, 2048, 11008]. `flat` is that [8192, 11008] array as one function of its four arrays; `unflatten` says that
  reshaping it back, when its activations and bias are the reshaped arguments, gives the specification `G`.
  A reshape keeps the row-major position, so (p, q, o) ↦ (p · 2048 + q, o) and (p, q, k) ↦ (p · 2048 + q, k).
-/
import proofs.«419972_j73040213836141_1_alg».proof.Proof.Spec
import Idealize.ShloMosaic.Lib.Pipeline.Value
import Idealize.ShloMosaic.Lib.ValueLayout

noncomputable section

namespace Cert.Nf4

open Idealize.ShloMosaic Idealize.ShloMosaic.ValueIdx

/-- The flattened activations' shape. -/
abbrev SX2 : Shape := ⟨2, ![8192, 4096]⟩
/-- The bias as a row. -/
abbrev SB2 : Shape := ⟨2, ![1, 11008]⟩
/-- The flattened result's shape. -/
abbrev SO2 : Shape := ⟨2, ![8192, 11008]⟩

/-- The flattened result at row `r`, column `o`. -/
def flatEntry (X : FVec Ideal SX2 .f32) (wq : IVec SQ 32) (am : FVec Ideal SA .f32) (B : FVec Ideal SB2 .f32)
    (r : Fin 8192) (o : Fin 11008) : EReal :=
  (∑ k : Fin 4096, X (ix2 r k) * (code (wq (ix2 o k)) * am (ix2 o (blk k)))) + B (ix2 (0 : Fin 1) o)

/-- THE FLATTENED RESULT ARRAY as one function of the flattened activations, the codes, the scales and the bias row. -/
def flat (X : FVec Ideal SX2 .f32) (wq : IVec SQ 32) (am : FVec Ideal SA .f32) (B : FVec Ideal SB2 .f32) : FVec Ideal SO2 .f32 :=
  fun i => flatEntry X wq am B (i 0) (i 1)

/-- The row of the flattened arrays that holds (p, q). -/
def row (p : Fin 4) (q : Fin 2048) : Fin 8192 := ⟨p.val * 2048 + q.val, by have := p.isLt; have := q.isLt; omega⟩

/-- The flattened activations at row (p, q) are the activations at (p, q, ·). -/
theorem flatX_apply (x : FVec Ideal SX .f32) (h : SX.ShapeCasts SX2) (p : Fin 4) (q : Fin 2048) (k : Fin 4096) :
    shapeCast SX2 x h (ix2 (row p q) k) = x (ix3 p q k) :=
  shapeCast_apply x h _ _ (by
    rw [Shape.rowMajor_val_three, Shape.rowMajor_val_two]
    show (p.val * 2048 + q.val) * 4096 + k.val = (p.val * 2048 + q.val) * 4096 + k.val
    rfl)

/-- Reshaped back, the flattened result over the reshaped arguments is the specification. -/
theorem unflatten (x : FVec Ideal SX .f32) (wq : IVec SQ 32) (am : FVec Ideal SA .f32) (b : FVec Ideal SB .f32)
    (hx : SX.ShapeCasts SX2) (hb : SB.ShapeCasts SB2) (ho : SO2.ShapeCasts SO) :
    shapeCast SO (flat (shapeCast SX2 x hx) wq am (shapeCast SB2 b hb)) ho = G x wq am b := by
  funext i
  obtain ⟨p, q, o, rfl⟩ : ∃ (p : Fin 4) (q : Fin 2048) (o : Fin 11008), i = ix3 p q o := ⟨i 0, i 1, i 2, eq_ix3 i⟩
  refine (shapeCast_apply _ ho (ix3 p q o) (ix2 (row p q) o) (by
    rw [Shape.rowMajor_val_three, Shape.rowMajor_val_two]
    show (p.val * 2048 + q.val) * 11008 + o.val = (p.val * 2048 + q.val) * 11008 + o.val
    rfl)).trans ?_
  show flatEntry (shapeCast SX2 x hx) wq am (shapeCast SB2 b hb) (row p q) o = entry x wq am b p q o
  unfold flatEntry entry weight
  rw [shapeCast_a_1a_apply b hb (0 : Fin 1) o]
  refine congrArg (· + b (ix1 o)) (Finset.sum_congr rfl fun k _ => ?_)
  rw [flatX_apply x hx p q k]

end Cert.Nf4

end
-- ==== Proof.KernelPayload.lean ====
/-
  What the kernel body stores, read at one index of its [512, 256] result block, on the extended reals.

  The body dequantizes a [256, 4096] block of weights (the table entry of each code times the scale of the
  code's run of 64 columns), multiplies the [512, 4096] block of activations by it, contracting the second
  axis of both, and adds the bias row. At (p, q) that is

      (∑ k < 4096, x[p, k] · (code(c[q, k]) · s[q, k / 64])) + b[0, q].

  Every change of number format is the identity on the extended reals, and the accumulator the product
  starts from is the zero splat.
-/
import proofs.«419972_j73040213836141_1_alg».proof.Proof.Gen.KernelIdeal.Skeleton
import proofs.«419972_j73040213836141_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

namespace Cert.Nf4.Kernel

open Cert.KernelIdeal Cert.KernelIdeal.Gen Idealize.ShloMosaic Idealize.ShloMosaic.ValueIdx

/-! ## The operand indices of the product

The product contracts axis 1 of both operands; axis 0 of the left operand is the result's row, axis 0 of the
right operand the result's column. One statement per operand axis, for any contraction index. -/

/-- The left operand's row is the result's row. -/
theorem lhs_axis0 (i : S512x256.Idx) (c : dot_S512x4096_S256x4096_S512x256_1_1_0_0_n_n.contr.Idx) :
    (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

/-- The left operand's column is the contraction index's one coordinate. -/
theorem lhs_axis1 (i : S512x256.Idx) (c : dot_S512x4096_S256x4096_S512x256_1_1_0_0_n_n.contr.Idx) :
    (dot_S512x4096_S256x4096_S512x256_1_1_0_0_n_n.lhsIdx i c 1).val = (c ⟨0, by decide⟩).val :=
  dot_S512x4096_S256x4096_S512x256_1_1_0_0_n_n.lhsIdx_val_of_single rfl i c

/-- The right operand's row is the result's column. -/
theorem rhs_axis0 (i : S512x256.Idx) (c : dot_S512x4096_S256x4096_S512x256_1_1_0_0_n_n.contr.Idx) :
    (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

/-- The right operand's column is the contraction index's one coordinate. -/
theorem rhs_axis1 (i : S512x256.Idx) (c : dot_S512x4096_S256x4096_S512x256_1_1_0_0_n_n.contr.Idx) :
    (dot_S512x4096_S256x4096_S512x256_1_1_0_0_n_n.rhsIdx i c 1).val = (c ⟨0, by decide⟩).val :=
  dot_S512x4096_S256x4096_S512x256_1_1_0_0_n_n.rhsIdx_val_of_single rfl i c

/-- The product from the zero accumulator at (p, q): the sum over k of left[p, k] · right[q, k]. -/
theorem matmul_at (L : FVec Ideal S512x4096 .bf16) (R : FVec Ideal S256x4096 .bf16) (p : Fin 512) (q : Fin 256) :
    matmul (F := Ideal) dot_S512x4096_S256x4096_S512x256_1_1_0_0_n_n none L R (constant (F := Ideal) S512x256 .f32 0x00000000#32) (ix2 p q)
      = ∑ k : Fin 4096, L (ix2 p k) * R (ix2 q k) := by
  refine (Ideal.matmul_constant_zero_apply dot_S512x4096_S256x4096_S512x256_1_1_0_0_n_n none L R (ix2 p q)).trans ?_
  rw [← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k :=
    funext fun a => Fin.ext (by
      match a with
      | ⟨0, _⟩ => exact lhs_axis0 _ _
      | ⟨1, _⟩ => exact (lhs_axis1 _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k :=
    funext fun a => Fin.ext (by
      match a with
      | ⟨0, _⟩ => exact rhs_axis0 _ _
      | ⟨1, _⟩ => exact (rhs_axis1 _ _).trans hk)
  rw [el, er]

/-! ## The scales spread over the columns

The [256, 64] block of scales is given a trailing unit axis, repeated 64 times along it, and flattened to
[256, 4096]: column k = 64 · (k / 64) + k % 64 reads the scale of block k / 64. -/

/-- The spread scales at (q, k): the scale of row q, block k / 64. -/
theorem scales_at (s : FVec Ideal S256x64 .f32) (h1 : S256x64.ShapeCasts S256x64x1) (h2 : S256x64x1.ShapeCasts S256x64x1)
    (h3 : S256x64x1.Broadcasts S256x64x64) (h4 : S256x64x64.ShapeCasts S256x4096) (q : Fin 256) (k : Fin 4096) :
    shapeCast S256x4096 (broadcastTo S256x64x64 (shapeCast S256x64x1 (shapeCast S256x64x1 s h1) h2) h3) h4 (ix2 q k)
      = s (ix2 q (blk k)) := by
  have hk := k.isLt
  -- flattening: position q · 4096 + k of [256, 4096] is position (q · 64 + k / 64) · 64 + k % 64 of [256, 64, 64]
  refine (shapeCast_apply _ h4 (ix2 q k) (ix3 q (blk k) (⟨k.val % 64, Nat.mod_lt _ (by decide)⟩ : Fin 64)) ?_).trans ?_
  · rw [Shape.rowMajor_val_three, Shape.rowMajor_val_two]
    show (q.val * 64 + k.val / 64) * 64 + k.val % 64 = q.val * 4096 + k.val
    omega
  -- the repetition along the last axis reads the unit axis at 0
  refine (broadcastTo_apply _ h3 _ (ix3 q (blk k) (0 : Fin 1)) (fun a => ?_)).trans ?_
  · match a with
    | ⟨0, _⟩ => rfl
    | ⟨1, _⟩ => rfl
    | ⟨2, _⟩ => rfl
  rw [shapeCast_self]
  -- the trailing unit axis: position (q · 64 + b) · 1 + 0 of [256, 64, 1] is position q · 64 + b of [256, 64]
  refine shapeCast_apply s h1 (ix3 q (blk k) (0 : Fin 1)) (ix2 q (blk k)) ?_
  rw [Shape.rowMajor_val_three, Shape.rowMajor_val_two]
  show q.val * 64 + k.val / 64 = (q.val * 64 + k.val / 64) * 1 + 0
  omega

/-! ## The body's value at an index -/

/-- The bias row added to every row of a [512, 256] block, at (p, q). -/
theorem pay1_at (V : FVec Ideal S512x256 .f32) (b : Vec Ideal S1x256 .f32) (p : Fin 512) (q : Fin 256) :
    k0_pay1 (F := Ideal) V b (ix2 p q) = V (ix2 p q) + b (ix2 (0 : Fin 1) q) := by
  unfold k0_pay1
  refine (addf_apply _ _ _).trans ?_
  refine congrArg (V (ix2 p q) + ·) ?_
  rw [shapeCast_self]
  exact broadcastTo_1b_ab_apply _ _ p q

/-- The chain of sixteen equality tests on a block of codes, at an index: the table read at that code. -/
theorem table_at (c : Vec Ideal S256x4096 .i32) (W : FVec Ideal S256x64 .f32) (A : Vec Ideal S512x4096 .f32)
    (p : Fin 512) (q : Fin 256) :
    k0_pay5 (F := Ideal) c (k0_pay2 (F := Ideal) c) (k0_pay3 (F := Ideal) c) (k0_pay4 (F := Ideal)) W A (ix2 p q)
      = ∑ k : Fin 4096, A (ix2 p k) * (Cert.Nf4.code (c (ix2 q k)) * W (ix2 q (Cert.Nf4.blk k))) := by
  unfold k0_pay5
  refine (matmul_at _ _ p q).trans ?_
  refine Finset.sum_congr rfl fun k _ => ?_
  refine congrArg₂ (· * ·) ?_ ?_
  · -- the activations: the narrowing is the identity, and so is the cast to the same shape
    exact congrFun (shapeCast_self A _) (ix2 p k)
  · -- the weights: the narrowing is the identity; the product at an index is the product of the entries
    refine (truncf_apply (φ := .f32) (ψ := .bf16) _ _ _).trans ?_
    refine (mulf_apply _ _ _).trans ?_
    refine congrArg₂ (· * ·) ?_ (scales_at W _ _ _ _ q k)
    unfold k0_pay2 k0_pay3 k0_pay4
    rfl

/-- THE BODY'S VALUE AT (p, q): the activations' row p against the dequantized weights' row q, plus the bias. -/
theorem payload_apply (x0 : Vec Ideal S512x4096 .f32) (x1 : Vec Ideal S256x4096 .i32) (x2 : Vec Ideal S256x64 .f32)
    (x3 : Vec Ideal S1x256 .f32) (p : Fin 512) (q : Fin 256) :
    k0_pay1 (F := Ideal) (k0_pay5 (F := Ideal) x1 (k0_pay2 (F := Ideal) x1) (k0_pay3 (F := Ideal) x1) (k0_pay4 (F := Ideal)) x2 x0) x3 (ix2 p q)
      = (∑ k : Fin 4096, x0 (ix2 p k) * (Cert.Nf4.code (x1 (ix2 q k)) * x2 (ix2 q (Cert.Nf4.blk k)))) + x3 (ix2 (0 : Fin 1) q) := by
  refine (pay1_at _ x3 p q).trans ?_
  exact congrArg (· + x3 (ix2 (0 : Fin 1) q)) (table_at x1 x2 x0 p q)

end Cert.Nf4.Kernel
-- ==== Proof.KernelValue.lean ====
/-
  The kernel's value: what the [4, 2048, 11008] result array holds after the run, as the specification `G` of the four
  argument arrays.

  The grid has 16 × 43 points; point `t` is (t / 43, t % 43). At point (a, b) the body reads rows a·512 … a·512+511 of
  the flattened activations, rows b·256 … b·256+255 of the codes and of the scales, columns b·256 … b·256+255 of the
  bias row, and writes the [512, 256] block (a, b) of the flattened result. Entry (p, q) of what it writes is, by the
  body's value at an index, the flattened specification `flat` at row a·512 + p, column b·256 + q: the contraction runs over
  the whole row of both operands, so a block of the result needs nothing outside its own rows and columns. The 688 blocks
  tile the array (row r, column o lies in block (r / 512, o / 256)), so the array after the region IS `flat` of the
  arrays the region finds; those are the reshaped activations, the codes, the scales and the reshaped bias; and the
  reshape after the region takes `flat` back to `G` (`unflatten`).
-/
import proofs.«419972_j73040213836141_1_alg».proof.Proof.Gen.KernelIdeal.Frame
import proofs.«419972_j73040213836141_1_alg».proof.Proof.Flat
import proofs.«419972_j73040213836141_1_alg».proof.Proof.KernelPayload
import Idealize.ShloMosaic.Lib.Pipeline.Value
import Idealize.ShloMosaic.Lib.ValueIdx
import Idealize.ShloMosaic.Lib.ValueLayout
import Idealize.ShloMosaic.Lib.StableHlo.Run

noncomputable section

namespace Cert.Nf4.Kernel

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: point `t` is (t / 43, t % 43); the activations' block follows the first coordinate,
    the codes', the scales' and the bias's blocks the second, the result's block both. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = t.val % 43 :=
  (by decide +kernel : ∀ t : Fin grid0.N, _)

/-- The zero offsets of a whole-block access, however they are spelt. -/
theorem hz : (![0, 0] : Fin 2 → Nat) = fun _ => 0 := funext fun a => by fin_cases a <;> rfl

/-- The activations' block at a point (the four input blocks at a point, each at its literal type). -/
abbrev xb (c : Dev nD) (t : Fin cfg0.N) : Vec Ideal S512x4096 .f32 := iblk m c 0 t
/-- The codes' block at a point. -/
abbrev qb (c : Dev nD) (t : Fin cfg0.N) : Vec Ideal S256x4096 .i32 := iblk m c 1 t
/-- The scales' block at a point. -/
abbrev ab (c : Dev nD) (t : Fin cfg0.N) : Vec Ideal S256x64 .f32 := iblk m c 2 t
/-- The bias row's block at a point. -/
abbrev bb (c : Dev nD) (t : Fin cfg0.N) : Vec Ideal S1x256 .f32 := iblk m c 3 t

/-- The flattened activations the region finds (the four arrays the region finds, each at its literal type). -/
abbrev Xa (c : Dev nD) : FVec Ideal SX2 .f32 := V m c main_v0
/-- The codes the region finds. -/
abbrev Qa (c : Dev nD) : IVec SQ 32 := V m c main_arg1
/-- The scales the region finds. -/
abbrev Aa (c : Dev nD) : FVec Ideal SA .f32 := V m c main_arg2
/-- The bias row the region finds. -/
abbrev Ba (c : Dev nD) : FVec Ideal SB2 .f32 := V m c main_v1

/-- Entry (p, k) of the activations' block at point `t` is row (t / 43) · 512 + p, column k of the array. -/
theorem xb_apply (c : Dev nD) (t : Fin cfg0.N) (p : Fin 512) (k : Fin 4096) (r : Fin 8192) (hr : r.val = t.val / 43 * 512 + p.val) :
    xb m c t (ix2 p k) = Xa m c (ix2 r k) := by
  show V m c main_v0 (((cfg0.win 0).blk t).view.emb (ix2 p k)) = V m c main_v0 (ix2 r k)
  refine congrArg _ (funext fun a => Fin.ext ?_)
  obtain ⟨e0, e1, -⟩ := idx_facts t
  match a with
  | ⟨0, _⟩ => show win0_0.index t (0 : Fin 2) * 512 + 1 * p.val = r.val; omega
  | ⟨1, _⟩ => show win0_0.index t (1 : Fin 2) * 4096 + 1 * k.val = k.val; omega

/-- Entry (q, k) of the codes' block at point `t` is row (t % 43) · 256 + q, column k of the array. -/
theorem qb_apply (c : Dev nD) (t : Fin cfg0.N) (q : Fin 256) (k : Fin 4096) (o : Fin 11008) (ho : o.val = t.val % 43 * 256 + q.val) :
    qb m c t (ix2 q k) = Qa m c (ix2 o k) := by
  show V m c main_arg1 (((cfg0.win 1).blk t).view.emb (ix2 q k)) = V m c main_arg1 (ix2 o k)
  refine congrArg _ (funext fun a => Fin.ext ?_)
  obtain ⟨-, -, e0, e1, -⟩ := idx_facts t
  match a with
  | ⟨0, _⟩ => show win0_1.index t (0 : Fin 2) * 256 + 1 * q.val = o.val; omega
  | ⟨1, _⟩ => show win0_1.index t (1 : Fin 2) * 4096 + 1 * k.val = k.val; omega

/-- Entry (q, g) of the scales' block at point `t` is row (t % 43) · 256 + q, block g of the array. -/
theorem ab_apply (c : Dev nD) (t : Fin cfg0.N) (q : Fin 256) (g : Fin 64) (o : Fin 11008) (ho : o.val = t.val % 43 * 256 + q.val) :
    ab m c t (ix2 q g) = Aa m c (ix2 o g) := by
  show V m c main_arg2 (((cfg0.win 2).blk t).view.emb (ix2 q g)) = V m c main_arg2 (ix2 o g)
  refine congrArg _ (funext fun a => Fin.ext ?_)
  obtain ⟨-, -, -, -, e0, e1, -⟩ := idx_facts t
  match a with
  | ⟨0, _⟩ => show win0_2.index t (0 : Fin 2) * 256 + 1 * q.val = o.val; omega
  | ⟨1, _⟩ => show win0_2.index t (1 : Fin 2) * 64 + 1 * g.val = g.val; omega

/-- Entry (0, q) of the bias's block at point `t` is column (t % 43) · 256 + q of the bias row. -/
theorem bb_apply (c : Dev nD) (t : Fin cfg0.N) (q : Fin 256) (o : Fin 11008) (ho : o.val = t.val % 43 * 256 + q.val) :
    bb m c t (ix2 (0 : Fin 1) q) = Ba m c (ix2 (0 : Fin 1) o) := by
  show V m c main_v1 (((cfg0.win 3).blk t).view.emb (ix2 (0 : Fin 1) q)) = V m c main_v1 (ix2 (0 : Fin 1) o)
  refine congrArg _ (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 256 + 1 * q.val = o.val; omega

/-- Entry (p, q) of the result's block at point `t` sits at row (t / 43) · 512 + p, column (t % 43) · 256 + q of the array. -/
theorem emb4 (t : Fin cfg0.N) (p : Fin 512) (q : Fin 256) (r : Fin 8192) (o : Fin 11008)
    (hr : r.val = t.val / 43 * 512 + p.val) (ho : o.val = t.val % 43 * 256 + q.val) :
    ((cfg0.win 4).blk t).view.emb (ix2 p q) = (ix2 r o : SO2.Idx) := by
  funext a; apply Fin.ext
  obtain ⟨-, -, -, -, -, -, -, -, e0, e1⟩ := idx_facts t
  match a with
  | ⟨0, _⟩ => show win0_4.index t (0 : Fin 2) * 512 + 1 * p.val = r.val; omega
  | ⟨1, _⟩ => show win0_4.index t (1 : Fin 2) * 256 + 1 * q.val = o.val; omega

/-- WHAT POINT `t` WRITES BACK is block `t` of the flattened specification of the arrays the region finds: the body's value at
    (p, q) is a sum over the whole contraction axis of entries of row (t / 43) · 512 + p of the activations and of row
    (t % 43) · 256 + q of the codes and scales, plus the bias at that column. -/
theorem flushed_eq (c : Dev nD) (t : Fin cfg0.N) :
    (dats m 0 c).flushed 4 t = ((cfg0.win 4).blk t).view.read (Elt Ideal) (flat (Xa m c) (Qa m c) (Aa m c) (Ba m c)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S256x64) hz, View.ld_unit_zero (S := S512x4096) hz, View.ld_unit_zero (S := S1x256) hz]
  funext j
  obtain ⟨p, q, rfl⟩ : ∃ (p : Fin 512) (q : Fin 256), j = ix2 p q := ⟨j 0, j 1, eq_ix2 j⟩
  have hN : t.val < 688 := lt_of_lt_of_eq t.isLt N_0
  let r : Fin 8192 := ⟨t.val / 43 * 512 + p.val, by have := p.isLt; omega⟩
  let o : Fin 11008 := ⟨t.val % 43 * 256 + q.val, by have := q.isLt; omega⟩
  show k0_pay1 (F := Ideal) (k0_pay5 (F := Ideal) (qb m c t) (k0_pay2 (F := Ideal) (qb m c t)) (k0_pay3 (F := Ideal) (qb m c t)) (k0_pay4 (F := Ideal)) (ab m c t) (xb m c t)) (bb m c t) (ix2 p q)
    = flat (Xa m c) (Qa m c) (Aa m c) (Ba m c) (((cfg0.win 4).blk t).view.emb (ix2 p q))
  rw [emb4 t p q r o rfl rfl]
  refine (payload_apply (xb m c t) (qb m c t) (ab m c t) (bb m c t) p q).trans ?_
  show _ = flatEntry (Xa m c) (Qa m c) (Aa m c) (Ba m c) r o
  unfold flatEntry
  rw [bb_apply m c t q o rfl]
  refine congrArg (· + Ba m c (ix2 (0 : Fin 1) o)) (Finset.sum_congr rfl fun k _ => ?_)
  rw [xb_apply m c t p k r rfl, qb_apply m c t q k o rfl, ab_apply m c t q (blk k) o rfl]

/-- An index of the array is in point `t`'s block iff each coordinate is in the block's range on its axis. -/
theorem mem_blk (t : Fin cfg0.N) (i : SO2.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v2).slice (win0_4.rect t)).set ↔ _
  rw [View.set_slice_whole, Rect.mem_set_unit]
  exact Iff.rfl

/-- Every index of the array is in some point's block: row `r`, column `o` is in the block of point (r / 512) · 43 + o / 256. -/
theorem cover (i : SO2.Idx) : ∃ t : Fin cfg0.N, (cfg0.win 4).flush t = true ∧ i ∈ ((cfg0.win 4).blk t).view.set := by
  have hi0 : (i 0).val < 8192 := (i 0).isLt
  have hi1 : (i 1).val < 11008 := (i 1).isLt
  let t : Fin cfg0.N := ⟨(i 0).val / 512 * 43 + (i 1).val / 256, by rw [show cfg0.N = 688 from N_0]; omega⟩
  refine ⟨t, flush0_4 t, ?_⟩
  rw [mem_blk]
  obtain ⟨-, -, -, -, -, -, -, -, e0, e1⟩ := idx_facts t
  have ht : t.val = (i 0).val / 512 * 43 + (i 1).val / 256 := rfl
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- THE ARRAY after the region. -/
theorem final (c : Dev nD) : (dats m 0 c).arrAt 4 cfg0.N = flat (Xa m c) (Qa m c) (Aa m c) (Ba m c) :=
  (dats m 0 c).arrAt_eq_of_cover 4 (flat (Xa m c) (Qa m c) (Aa m c) (Ba m c)) (fun t _ => flushed_eq m c t) cover

/-- The flattened activations the region finds are the activations reshaped. -/
theorem Xa_eq (c : Dev nD) : Xa m c = shapeCast SX2 (m ((c : Thread nD τ).loc main_arg0)) shapeCasts_S4x2048x4096_S8192x4096 := by
  show StableHlo.after hostOps0 (fun b => m (c, b)) (Proc.devRef .tc main_v0) = _
  after_results
  rfl

/-- The bias row the region finds is the bias reshaped. -/
theorem Ba_eq (c : Dev nD) : Ba m c = shapeCast SB2 (m ((c : Thread nD τ).loc main_arg3)) shapeCasts_S11008_S1x11008 := by
  show StableHlo.after hostOps0 (fun b => m (c, b)) (Proc.devRef .tc main_v1) = _
  after_results
  rfl

/-- The reshape after the region: the result is the region's output array reshaped to [4, 2048, 11008]. -/
theorem tail_eq (c : Dev nD) :
    Pipeline.afterTail₀ cfgs (dats m) 0 (V0 m) [hostOps1] c main_v3
      = shapeCast SO ((dats m 0 c).arrAt 4 cfg0.N) shapeCasts_S8192x11008_S4x2048x11008 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 4
  show shapeCast SO (Pipeline.withArrays spec0 c (V0 m c) (fun w => (dats m 0 c).arrAt w cfg0.N) (Proc.devRef .tc (Pipeline.arrRef spec0 4))) _ = _
  rw [e]

/-- THE KERNEL'S RUN, READ: the result array ends at the specification of the launch contents of the four arguments, which end unchanged. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨by
      rw [(h c).2 main_v3 (Pipeline.mem_restRefs_of main_v3 (by decide) (by decide)), tail_eq m c, final m c, Xa_eq m c, Ba_eq m c]
      exact (congrArg (fun w => shapeCast SO (flat _ w _ _) _) (V_main_arg1 m c)).trans
        ((congrArg (fun a => shapeCast SO (flat _ _ a _) _) (V_main_arg2 m c)).trans (unflatten _ _ _ _ _ _ _)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.Nf4.Kernel

end
-- ==== Proof.RefRun.lean ====
/-
  The reference program's run, read back.

  The reference is a straight line of nineteen host operations: a sixteen-entry table; the codes with a negative code
  moved up by sixteen; the table read at every code; the codes' values regrouped in blocks of 64 columns and multiplied
  by their block's scale; the contraction of the activations with these weights over the 4096 columns; the bias added.
  Every weakly fair execution terminates with the result buffer at the composition of these operations over the four
  argument arrays, the arguments unchanged.
-/
import proofs.«419972_j73040213836141_1_alg».proof.Proof.Gen.ReferenceIdeal
import Idealize.ShloMosaic.Lib.StableHlo.Run

noncomputable section

namespace Cert.Nf4.Ref

open Cert.ReferenceIdeal Cert.ReferenceIdeal.Gen Idealize.ShloMosaic Idealize.ShloMosaic.TcCoe Idealize.SL.Sem Idealize.ShloMosaic.StableHlo

variable {F : FTy → Type} [FloatOps F]

/-- The sixteen-entry table: entry `i` is the float whose word is the `i`-th listed word. -/
def table : FVec F S16 .f32 := fun i => FloatOps.ofBits .f32 (lit0 (S16.rowMajor i))

/-- The codes with every negative code moved up by sixteen. -/
def wrapped (wq : IVec S11008x4096 32) : IVec S11008x4096 32 :=
  select (cmpi .slt wq (broadcastInDim S11008x4096 ![] bcast_S_S11008x4096 (constantI S_ 32 0#32)))
    (addi wq (broadcastInDim S11008x4096 ![] bcast_S_S11008x4096 (constantI S_ 32 16#32))) wq

/-- The table read at every (wrapped) code, the position clamped into the table. -/
def looked (wq : IVec S11008x4096 32) : FVec F S11008x4096 .f32 :=
  Host.gather gather_S16_S11008x4096x1_S11008x4096_n_0_n_n_0_2_1 (table (F := F))
    (broadcastInDim S11008x4096x1 ![0, 1] bcast_S11008x4096_S11008x4096x1_0_1 (wrapped wq))

/-- The scales, one per block of 64 columns, repeated along each block. -/
def scales (am : FVec F S11008x64 .f32) : FVec F S11008x64x64 .f32 :=
  broadcastInDim S11008x64x64 ![0, 1, 2] bcast_S11008x64x1_S11008x64x64_0_1_2
    (broadcastInDim S11008x64x1 ![0, 1] bcast_S11008x64_S11008x64x1_0_1 am)

/-- The dequantized weights: table entries times their block's scale, back in the codes' shape. -/
def weights (wq : IVec S11008x4096 32) (am : FVec F S11008x64 .f32) : FVec F S11008x4096 .f32 :=
  shapeCast S11008x4096
    (mulf (shapeCast S11008x64x64 (looked (F := F) wq) shapeCasts_S11008x4096_S11008x64x64) (scales am))
    shapeCasts_S11008x64x64_S11008x4096

/-- The bias repeated over the two leading axes. -/
def biasAll (b : FVec F S11008 .f32) : FVec F S4x2048x11008 .f32 :=
  broadcastInDim S4x2048x11008 ![0, 1, 2] bcast_S1x1x11008_S4x2048x11008_0_1_2
    (broadcastInDim S1x1x11008 ![2] bcast_S11008_S1x1x11008_2 b)

/-- the operations' composed term of the four argument arrays -/
def refTerm (x : FVec F S4x2048x4096 .f32) (wq : IVec S11008x4096 32) (am : FVec F S11008x64 .f32) (b : FVec F S11008 .f32) :
    FVec F S4x2048x11008 .f32 :=
  addf (Host.dotGeneral dot_S4x2048x4096_S11008x4096_S4x2048x11008_2_1_01_0_n_n none x (weights wq am)) (biasAll b)

/-- @main's 19 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S11008x4096 ![] bcast_S_S11008x4096 : (⟨S_, .i32⟩ : BufTy).Contents (Elt F) → (⟨S11008x4096, .i32⟩ : BufTy).Contents (Elt F)),
    binary main_arg1 main_v0 main_v1 (cmpi .slt : (⟨S11008x4096, .i32⟩ : BufTy).Contents (Elt F) → (⟨S11008x4096, .i32⟩ : BufTy).Contents (Elt F) → (⟨S11008x4096, .i1⟩ : BufTy).Contents (Elt F)),
    nullary main_c_0 (constantI S_ 32 16#32),
    unary main_c_0 main_v2 (broadcastInDim S11008x4096 ![] bcast_S_S11008x4096 : (⟨S_, .i32⟩ : BufTy).Contents (Elt F) → (⟨S11008x4096, .i32⟩ : BufTy).Contents (Elt F)),
    binary main_arg1 main_v2 main_v3 (addi : (⟨S11008x4096, .i32⟩ : BufTy).Contents (Elt F) → (⟨S11008x4096, .i32⟩ : BufTy).Contents (Elt F) → (⟨S11008x4096, .i32⟩ : BufTy).Contents (Elt F)),
    ternary main_v1 main_v3 main_arg1 main_v4 (select : (⟨S11008x4096, .i1⟩ : BufTy).Contents (Elt F) → (⟨S11008x4096, .i32⟩ : BufTy).Contents (Elt F) → (⟨S11008x4096, .i32⟩ : BufTy).Contents (Elt F) → (⟨S11008x4096, .i32⟩ : BufTy).Contents (Elt F)),
    unary main_v4 main_v5 (broadcastInDim S11008x4096x1 ![0, 1] bcast_S11008x4096_S11008x4096x1_0_1 : (⟨S11008x4096, .i32⟩ : BufTy).Contents (Elt F) → (⟨S11008x4096x1, .i32⟩ : BufTy).Contents (Elt F)),
    binary main_cst main_v5 main_v6 ((fun x i => Host.gather gather_S16_S11008x4096x1_S11008x4096_n_0_n_n_0_2_1 x i) : (⟨S16, .f32⟩ : BufTy).Contents (Elt F) → (⟨S11008x4096x1, .i32⟩ : BufTy).Contents (Elt F) → (⟨S11008x4096, .f32⟩ : BufTy).Contents (Elt F)),
    StableHlo.reshape main_v6 main_v7 rfl shapeCasts_S11008x4096_S11008x64x64,
    unary main_arg2 main_v8 (broadcastInDim S11008x64x1 ![0, 1] bcast_S11008x64_S11008x64x1_0_1 : (⟨S11008x64, .f32⟩ : BufTy).Contents (Elt F) → (⟨S11008x64x1, .f32⟩ : BufTy).Contents (Elt F)),
    unary main_v8 main_v9 (broadcastInDim S11008x64x64 ![0, 1, 2] bcast_S11008x64x1_S11008x64x64_0_1_2 : (⟨S11008x64x1, .f32⟩ : BufTy).Contents (Elt F) → (⟨S11008x64x64, .f32⟩ : BufTy).Contents (Elt F)),
    binary main_v7 main_v9 main_v10 (mulf : (⟨S11008x64x64, .f32⟩ : BufTy).Contents (Elt F) → (⟨S11008x64x64, .f32⟩ : BufTy).Contents (Elt F) → (⟨S11008x64x64, .f32⟩ : BufTy).Contents (Elt F)),
    StableHlo.reshape main_v10 main_v11 rfl shapeCasts_S11008x64x64_S11008x4096,
    binary main_arg0 main_v11 main_v12 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)),
    unary main_arg3 main_v13 (broadcastInDim S1x1x11008 ![2] bcast_S11008_S1x1x11008_2 : (⟨S11008, .f32⟩ : BufTy).Contents (Elt F) → (⟨S1x1x11008, .f32⟩ : BufTy).Contents (Elt F)),
    unary main_v13 main_v14 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    binary main_v12 main_v14 main_v15 (addf : (⟨S4x2048x11008, .f32⟩ : BufTy).Contents (Elt F) → (⟨S4x2048x11008, .f32⟩ : BufTy).Contents (Elt F) → (⟨S4x2048x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., reshape_bufs_sub .., unary_bufs_sub ..,
   unary_bufs_sub .., binary_bufs_sub .., reshape_bufs_sub .., binary_bufs_sub .., unary_bufs_sub .., unary_bufs_sub ..,
   binary_bufs_sub ..⟩

/-- On the one device, for any float values, from any memory with zero counters: every weakly fair execution of @main
    terminates with the result buffer at the operations' composed term of the four arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.Nf4.Ref

end
-- ==== Proof.RefValue.lean ====
/-
  The reference's composed term is the specification.

  At the ideal instance, and under the codes' range 0 ≤ c < 16, the reference's result at (p, q, o) is
  (∑ k < 4096, x[p, q, k] · (code(wq[o, k]) · am[o, k / 64])) + b[o]:
    · a code that is not negative is not moved by the wrap, and the clamped read of the sixteen-entry table at a code
      in range is the chain of sixteen equality tests at that code (sixteen closed cases);
    · regrouping [11008, 4096] as [11008, 64, 64] sends column k to (k / 64, k % 64), so the scale that multiplies
      column k is the one of block k / 64;
    · the contraction over the last axis of the activations and the last axis of the weights is the sum over k;
    · the bias, repeated over the two leading axes, is read at o.
-/
import proofs.«419972_j73040213836141_1_alg».proof.Proof.RefRun
import proofs.«419972_j73040213836141_1_alg».proof.Proof.Spec
import Idealize.ShloMosaic.Lib.ValueIdx
import Idealize.ShloMosaic.Lib.Pipeline.Value
import Idealize.ShloMosaic.PureOps.Ideal.Laws

noncomputable section

namespace Cert.Nf4.Ref

open Cert.ReferenceIdeal Cert.ReferenceIdeal.Gen Idealize.ShloMosaic Idealize.ShloMosaic.ValueIdx

/-! ## One code -/

/-- A code in range, read as an unsigned word, is below sixteen. -/
theorem toNat_lt_of_range (c : BitVec 32) (h0 : 0 ≤ c.toInt) (h1 : c.toInt < 16) : c.toNat < 16 := by
  have := c.isLt
  rw [BitVec.toInt_eq_toNat_cond] at h0 h1
  split at h0 <;> omega

/-- A code in range is one of the sixteen words 0, …, 15. -/
theorem exists_fin_of_range (c : BitVec 32) (h0 : 0 ≤ c.toInt) (h1 : c.toInt < 16) :
    ∃ n : Fin 16, c = BitVec.ofNat 32 n.val := by
  have h := toNat_lt_of_range c h0 h1
  refine ⟨⟨c.toNat, h⟩, ?_⟩
  apply BitVec.eq_of_toNat_eq
  simp only [BitVec.toNat_ofNat]
  have := c.isLt
  omega

/-- A code that is not negative is not moved by the wrap. -/
theorem wrap_of_nonneg (c : BitVec 32) (h0 : 0 ≤ c.toInt) :
    Scalar.select (IntOp.cmpi .slt c 0#32) (IntOp.addi c 16#32) c = c := by
  have h : c.slt 0#32 = false := by
    simp only [BitVec.slt, BitVec.toInt_zero, decide_eq_false_iff_not, not_lt]; exact h0
  unfold Scalar.select IntOp.cmpi
  simp only [h]
  rfl

/-- The table's one axis: the row-major position of an index is its coordinate. -/
theorem rowMajor_ix1 (a : Fin 16) : S16.rowMajor (ix1 a) = a := Fin.ext (Shape.rowMajor_val_one _)

/-- The clamped read of the table at a code in range is the chain of sixteen equality tests at that code: for each of
    the sixteen words both sides are the same listed word's float. -/
theorem table_code (c : BitVec 32) (h0 : 0 ≤ c.toInt) (h1 : c.toInt < 16) :
    (FloatOps.ofBits .f32 (lit0 (S16.rowMajor (ix1 ⟨min c.toInt.toNat 15, by omega⟩))) : Ideal .f32) = Cert.Nf4.code c := by
  rw [rowMajor_ix1]
  obtain ⟨n, rfl⟩ := exists_fin_of_range c h0 h1
  fin_cases n <;> rfl

/-- The same read, of a word `c` known equal to a code `c'` in range. -/
theorem table_read (c c' : BitVec 32) (hcc : c = c') (h0 : 0 ≤ c'.toInt) (h1 : c'.toInt < 16)
    (hlt : min c.toInt.toNat (16 - 1) < 16) :
    table (F := Ideal) (ix1 ⟨min c.toInt.toNat (16 - 1), hlt⟩) = Cert.Nf4.code c' := by
  subst hcc
  exact table_code c h0 h1

/-! ## The stages at an index -/

/-- The wrapped codes at an index: the wrap of the code there. -/
theorem wrapped_apply (wq : IVec S11008x4096 32) (j : S11008x4096.Idx) :
    wrapped wq j = Scalar.select (IntOp.cmpi .slt (wq j) 0#32) (IntOp.addi (wq j) 16#32) (wq j) := rfl

/-- The gather's dimension numbers are those of a read of a flat table at a rank-2 array of positions. -/
theorem gatherRec_eq : gather_S16_S11008x4096x1_S11008x4096_n_0_n_n_0_2_1 = takeDims 16 11008 4096 gather_S16_S11008x4096x1_S11008x4096_n_0_n_n_0_2_1_wf := rfl

/-- The gather at (o, k): the table at the position held there, read signed and clamped into 0..15. -/
theorem gather_apply (t : FVec Ideal S16 .f32) (idx : IVec S11008x4096x1 32) (y : S11008x4096.Idx) :
    Host.gather gather_S16_S11008x4096x1_S11008x4096_n_0_n_n_0_2_1 t idx y
      = t (ix1 ⟨min (idx (takeIdx y)).toInt.toNat (16 - 1), by omega⟩) := by
  rw [gatherRec_eq]
  exact gather_take_apply (by decide) _ t idx y

/-- The table read at (o, k) is the code's table entry. -/
theorem looked_apply (wq : IVec S11008x4096 32) (o : Fin 11008) (k : Fin 4096)
    (h0 : 0 ≤ (wq (ix2 o k)).toInt) (h1 : (wq (ix2 o k)).toInt < 16) :
    looked (F := Ideal) wq (ix2 o k) = Cert.Nf4.code (wq (ix2 o k)) := by
  unfold looked
  refine (gather_apply _ _ (ix2 o k)).trans ?_
  refine table_read _ _ ?_ h0 h1 _
  refine (broadcastInDim_apply _ _ (wrapped wq) (takeIdx (ix2 o k)) (ix2 o k) fun a => ?_).trans ?_
  · match a with
    | ⟨0, _⟩ => rfl
    | ⟨1, _⟩ => rfl
  · exact (wrapped_apply wq (ix2 o k)).trans (wrap_of_nonneg _ h0)

/-- The scales at (o, g, l): the scale of row o, block g. -/
theorem scales_apply (am : FVec Ideal S11008x64 .f32) (o : Fin 11008) (g l : Fin 64) :
    scales am (ix3 o g l) = am (ix2 o g) := by
  unfold scales
  refine (broadcastInDim_apply _ _ _ (ix3 o g l) (ix3 o g (0 : Fin 1)) fun a => ?_).trans ?_
  · match a with
    | ⟨0, _⟩ => rfl
    | ⟨1, _⟩ => rfl
    | ⟨2, _⟩ => rfl
  · refine broadcastInDim_apply _ _ am (ix3 o g (0 : Fin 1)) (ix2 o g) fun a => ?_
    match a with
    | ⟨0, _⟩ => rfl
    | ⟨1, _⟩ => rfl

/-- The bias at (p, q, o): the bias of column o. -/
theorem biasAll_apply (b : FVec Ideal S11008 .f32) (p : Fin 4) (q : Fin 2048) (o : Fin 11008) :
    biasAll b (ix3 p q o) = b (ix1 o) := by
  unfold biasAll
  refine (broadcastInDim_apply _ _ _ (ix3 p q o) (ix3 (0 : Fin 1) (0 : Fin 1) o) fun a => ?_).trans ?_
  · match a with
    | ⟨0, _⟩ => rfl
    | ⟨1, _⟩ => rfl
    | ⟨2, _⟩ => rfl
  · refine broadcastInDim_apply _ _ b (ix3 (0 : Fin 1) (0 : Fin 1) o) (ix1 o) fun a => ?_
    match a with
    | ⟨0, _⟩ => rfl

/-- The dequantized weight at (o, k): the code's table entry times the scale of block k / 64. -/
theorem weights_apply (wq : IVec S11008x4096 32) (am : FVec Ideal S11008x64 .f32) (o : Fin 11008) (k : Fin 4096)
    (h0 : 0 ≤ (wq (ix2 o k)).toInt) (h1 : (wq (ix2 o k)).toInt < 16) :
    weights (F := Ideal) wq am (ix2 o k) = Cert.Nf4.code (wq (ix2 o k)) * am (ix2 o (Cert.Nf4.blk k)) := by
  have hk := k.isLt
  unfold weights
  -- column k of [11008, 4096] is (k / 64, k % 64) of [11008, 64, 64]: the same row-major position
  refine (shapeCast_apply _ _ (ix2 o k)
    (ix3 o (⟨k.val / 64, by omega⟩ : Fin 64) (⟨k.val % 64, by omega⟩ : Fin 64)) ?_).trans ?_
  · rw [Shape.rowMajor_val_three, Shape.rowMajor_val_two]
    show (o.val * 64 + k.val / 64) * 64 + k.val % 64 = o.val * 4096 + k.val
    omega
  rw [mulf_apply]
  refine congrArg₂ (· * ·) ?_ ?_
  · refine (shapeCast_apply _ _ (ix3 o (⟨k.val / 64, by omega⟩ : Fin 64) (⟨k.val % 64, by omega⟩ : Fin 64)) (ix2 o k) ?_).trans ?_
    · rw [Shape.rowMajor_val_three, Shape.rowMajor_val_two]
      show o.val * 4096 + k.val = (o.val * 64 + k.val / 64) * 64 + k.val % 64
      omega
    · exact looked_apply wq o k h0 h1
  · exact scales_apply am o _ _

/-! ## The contraction -/

theorem lhs_dot_0 (i : S4x2048x11008.Idx) (q : dot_S4x2048x4096_S11008x4096_S4x2048x11008_2_1_01_0_n_n.contr.Idx) : (dot_S4x2048x4096_S11008x4096_S4x2048x11008_2_1_01_0_n_n.lhsIdx i q 0).val = (i 0).val := by
  unfold DotDims.lhsIdx
  rw [dif_neg (show ¬(0 : Fin S4x2048x4096.rank) ∈ dot_S4x2048x4096_S11008x4096_S4x2048x11008_2_1_01_0_n_n.lhsBatch by decide),
    dif_pos (show (0 : Fin S4x2048x4096.rank) ∈ dot_S4x2048x4096_S11008x4096_S4x2048x11008_2_1_01_0_n_n.lhsNonContracting by decide)]
  rfl

theorem lhs_dot_1 (i : S4x2048x11008.Idx) (q : dot_S4x2048x4096_S11008x4096_S4x2048x11008_2_1_01_0_n_n.contr.Idx) : (dot_S4x2048x4096_S11008x4096_S4x2048x11008_2_1_01_0_n_n.lhsIdx i q 1).val = (i 1).val := by
  unfold DotDims.lhsIdx
  rw [dif_neg (show ¬(1 : Fin S4x2048x4096.rank) ∈ dot_S4x2048x4096_S11008x4096_S4x2048x11008_2_1_01_0_n_n.lhsBatch by decide),
    dif_pos (show (1 : Fin S4x2048x4096.rank) ∈ dot_S4x2048x4096_S11008x4096_S4x2048x11008_2_1_01_0_n_n.lhsNonContracting by decide)]
  rfl

theorem lhs_dot_2 (i : S4x2048x11008.Idx) (q : dot_S4x2048x4096_S11008x4096_S4x2048x11008_2_1_01_0_n_n.contr.Idx) :
    (dot_S4x2048x4096_S11008x4096_S4x2048x11008_2_1_01_0_n_n.lhsIdx i q 2).val = (q ⟨0, by decide⟩).val :=
  dot_S4x2048x4096_S11008x4096_S4x2048x11008_2_1_01_0_n_n.lhsIdx_val_of_single rfl i q

theorem rhs_dot_0 (i : S4x2048x11008.Idx) (q : dot_S4x2048x4096_S11008x4096_S4x2048x11008_2_1_01_0_n_n.contr.Idx) : (dot_S4x2048x4096_S11008x4096_S4x2048x11008_2_1_01_0_n_n.rhsIdx i q 0).val = (i 2).val := by
  unfold DotDims.rhsIdx
  rw [dif_neg (show ¬(0 : Fin S11008x4096.rank) ∈ dot_S4x2048x4096_S11008x4096_S4x2048x11008_2_1_01_0_n_n.rhsBatch by decide),
    dif_pos (show (0 : Fin S11008x4096.rank) ∈ dot_S4x2048x4096_S11008x4096_S4x2048x11008_2_1_01_0_n_n.rhsNonContracting by decide)]
  rfl

theorem rhs_dot_1 (i : S4x2048x11008.Idx) (q : dot_S4x2048x4096_S11008x4096_S4x2048x11008_2_1_01_0_n_n.contr.Idx) :
    (dot_S4x2048x4096_S11008x4096_S4x2048x11008_2_1_01_0_n_n.rhsIdx i q 1).val = (q ⟨0, by decide⟩).val :=
  dot_S4x2048x4096_S11008x4096_S4x2048x11008_2_1_01_0_n_n.rhsIdx_val_of_single rfl i q

/-- The contraction at (p, q, o): the sum over the 4096 columns of the activation at (p, q, k) times the weight at (o, k). -/
theorem dot_apply (x : FVec Ideal S4x2048x4096 .f32) (w : FVec Ideal S11008x4096 .f32) (p : Fin 4) (q : Fin 2048) (o : Fin 11008) :
    Host.dotGeneral (F := Ideal) dot_S4x2048x4096_S11008x4096_S4x2048x11008_2_1_01_0_n_n none x w (ix3 p q o) = ∑ k : Fin 4096, x (ix3 p q k) * w (ix2 o k) := by
  simp only [Host.dotGeneral]
  rw [Ideal.dotGeneral_apply, ← Equiv.sum_comp (ValueIdx.contrEquiv1 dot_S4x2048x4096_S11008x4096_S4x2048x11008_2_1_01_0_n_n 4096 rfl rfl).symm]
  refine Finset.sum_congr rfl fun k _ => ?_
  have hk := ValueIdx.contrEquiv1_symm_val dot_S4x2048x4096_S11008x4096_S4x2048x11008_2_1_01_0_n_n 4096 rfl rfl k
  have el : dot_S4x2048x4096_S11008x4096_S4x2048x11008_2_1_01_0_n_n.lhsIdx (ix3 p q o) ((ValueIdx.contrEquiv1 dot_S4x2048x4096_S11008x4096_S4x2048x11008_2_1_01_0_n_n 4096 rfl rfl).symm k) = ix3 p q k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S4x2048x4096_S11008x4096_S4x2048x11008_2_1_01_0_n_n.rhsIdx (ix3 p q o) ((ValueIdx.contrEquiv1 dot_S4x2048x4096_S11008x4096_S4x2048x11008_2_1_01_0_n_n 4096 rfl rfl).symm k) = ix2 o k :=
    funext fun a => Fin.ext (by
      match a with
      | ⟨0, _⟩ => exact rhs_dot_0 _ _
      | ⟨1, _⟩ => exact (rhs_dot_1 _ _).trans hk)
  rw [el, er]

/-! ## The result -/

/-- Under the codes' range the reference's composed term is the specification. -/
theorem refTerm_eq_G (x : FVec Ideal SX .f32) (wq : IVec SQ 32) (am : FVec Ideal SA .f32) (b : FVec Ideal SB .f32)
    (hq : ∀ i : SQ.Idx, 0 ≤ (wq i).toInt ∧ (wq i).toInt < 16) :
    refTerm (F := Ideal) x wq am b = Cert.Nf4.G x wq am b := by
  funext i
  obtain ⟨p, q, o, rfl⟩ : ∃ (p : Fin 4) (q : Fin 2048) (o : Fin 11008), i = ix3 p q o := ⟨i 0, i 1, i 2, eq_ix3 i⟩
  show addf (Host.dotGeneral (F := Ideal) dot_S4x2048x4096_S11008x4096_S4x2048x11008_2_1_01_0_n_n none x (weights wq am)) (biasAll b) (ix3 p q o)
    = (∑ k : Fin 4096, x (ix3 p q k) * Cert.Nf4.weight wq am o k) + b (ix1 o)
  rw [addf_apply, dot_apply, biasAll_apply]
  refine congrArg (· + b (ix1 o)) (Finset.sum_congr rfl fun k _ => ?_)
  exact congrArg (x (ix3 p q k) * ·) (weights_apply wq am o k (hq (ix2 o k)).1 (hq (ix2 o k)).2)

end Cert.Nf4.Ref

end
-- ==== Proof.lean ====
/-
  The certificate of the 4-bit blockwise-quantized linear layer: the kernel against its jnp reference, on the extended
  reals, for codes in 0..15.

  Both programs compute  out[p, q, o] = (∑ k < 4096, x[p, q, k] · (code(wq[o, k]) · am[o, k / 64])) + b[o]  (`Cert.Nf4.G`).
  The kernel reads the sixteen-entry table by sixteen equality tests, so a word outside 0..15 would read 0; the reference
  reads it by a gather that wraps a negative word by 16 and clamps: the two agree exactly on the words 0..15, which is
  what the precondition says of every code. The kernel multiplies block by block with the whole contraction axis in every
  block, the reference in one product: the same sum term for term, so no law of the extended reals beyond the reading of
  each operation is used, and the finiteness of the float inputs is never opened.
  The frames of the two kernel programs are the generated ones; the reference's frame is its run with the result dropped;
  nothing was rewritten by the idealization, so `preserves` is trivial.
-/
import proofs.«419972_j73040213836141_1_alg».proof.Defs
import proofs.«419972_j73040213836141_1_alg».proof.Proof.Gen.Kernel
import proofs.«419972_j73040213836141_1_alg».proof.Proof.Gen.Kernel.Skeleton
import proofs.«419972_j73040213836141_1_alg».proof.Proof.Gen.Kernel.Launch
import proofs.«419972_j73040213836141_1_alg».proof.Proof.Gen.Kernel.Points
import proofs.«419972_j73040213836141_1_alg».proof.Proof.Gen.Kernel.Frame
import proofs.«419972_j73040213836141_1_alg».proof.Proof.Gen.KernelIdeal
import proofs.«419972_j73040213836141_1_alg».proof.Proof.Gen.KernelIdeal.Skeleton
import proofs.«419972_j73040213836141_1_alg».proof.Proof.Gen.KernelIdeal.Launch
import proofs.«419972_j73040213836141_1_alg».proof.Proof.Gen.KernelIdeal.Points
import proofs.«419972_j73040213836141_1_alg».proof.Proof.Gen.KernelIdeal.Frame
import proofs.«419972_j73040213836141_1_alg».proof.Proof.Gen.ReferenceIdeal
import proofs.«419972_j73040213836141_1_alg».proof.Proof.Gen.Pre_finite_inputs
import proofs.«419972_j73040213836141_1_alg».proof.Proof.PreRange
import proofs.«419972_j73040213836141_1_alg».proof.Proof.KernelValue
import proofs.«419972_j73040213836141_1_alg».proof.Proof.RefRun
import proofs.«419972_j73040213836141_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.Nf4.Ref.run (F := Ideal) m ρ)

/-- From memories agreeing on the arguments both programs end at the specification of those arguments: the kernel by
    its run read block by block, the reference by its run read at an index, where the codes' range makes the clamped
    table read the chain of tests. -/
theorem algebraic : Cert.algebraic_KernelIdeal_ReferenceIdeal := by
  intro m ρ m' ρ' hpre hagree
  refine ⟨fun c => Cert.Nf4.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Nf4.Kernel.run m ρ, ?_⟩
  refine (θ_run Cert.ReferenceIdeal.defs _ _).mono (fun _ h c => ⟨(h c).1.trans ?_, (h c).2⟩)
    (Cert.Nf4.Ref.run (F := Ideal) m' ρ')
  rw [(hagree c).1, (hagree c).2.1, (hagree c).2.2.1, (hagree c).2.2.2]
  exact Cert.Nf4.Ref.refTerm_eq_G _ _ _ _ (Cert.Nf4.codes_in_range _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
